-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 112
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S_, .f32⟩
  | .hbm, ⟨21, _⟩ => ⟨S800000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000, .f32⟩
  | .hbm, ⟨52, _⟩ => ⟨S800000, .f32⟩
  | .hbm, ⟨53, _⟩ => ⟨S50000x128, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S50000x40, .f32⟩
  | .hbm, ⟨85, _⟩ => ⟨S800000x1, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x40, .f32⟩
  | .hbm, ⟨95, _⟩ => ⟨S800000x40, .f32⟩
  | .hbm, ⟨96, _⟩ => ⟨S800000x40, .f32⟩
  | .hbm, ⟨97, _⟩ => ⟨S_, .f32⟩
  | .hbm, ⟨98, _⟩ => ⟨S50000x40, .f32⟩
  | .hbm, ⟨99, _⟩ => ⟨S800000x1, .i32⟩
  | .hbm, ⟨100, _⟩ => ⟨S50000x40, .f32⟩
  | .hbm, ⟨101, _⟩ => ⟨S_, .f32⟩
  | .hbm, ⟨102, _⟩ => ⟨S50000, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x40, .f32⟩
  | .hbm, ⟨107, _⟩ => ⟨S50000x40, .f32⟩
  | .hbm, ⟨108, _⟩ => ⟨S50000x40, .f32⟩
  | .hbm, ⟨109, _⟩ => ⟨S1x40, .f32⟩
  | .hbm, ⟨110, _⟩ => ⟨S50000x40, .f32⟩
  | .hbm, ⟨111, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x40, .f32⟩
  | .local _ .vmem, ⟨8, _⟩ => ⟨S2000x40, .f32⟩
  | .local _ .vmem, ⟨9, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S50000x40.size a
  hwx1_2 : ∀ i : grid1.Coords, EltTy.bits .f32 = 32 ∨ (Rect.block (s := S50000x40) S2000x40.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 155
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x40, .f32⟩
  | 85 => ⟨S_, .f32⟩
  | 86 => ⟨S50000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S_, .f32⟩
  | 96 => ⟨S800000, .f32⟩
  | 97 => ⟨S50000, .f32⟩
  | 98 => ⟨S_, .f32⟩
  | 99 => ⟨S50000, .f32⟩
  | 100 => ⟨S50000, .f32⟩
  | 101 => ⟨S_, .f32⟩
  | 102 => ⟨S50000, .f32⟩
  | 103 => ⟨S50000, .i1⟩
  | 104 => ⟨S50000, .f32⟩
  | 105 => ⟨S_, .f32⟩
  | 106 => ⟨S_, .f32⟩
  | 107 => ⟨S50000, .f32⟩
  | 108 => ⟨S50000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S800000, .f32⟩
  | _ => ⟨S50000x256, .f32⟩

abbrev hbmTy0_1 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x40, .f32⟩
  | 10 => ⟨S800000x40, .f32⟩
  | 11 => ⟨S800000x40, .f32⟩
  | 12 => ⟨S_, .f32⟩
  | 13 => ⟨S50000x40, .f32⟩
  | 14 => ⟨S800000x1, .i32⟩
  | 15 => ⟨S50000x40, .f32⟩
  | 16 => ⟨S_, .f32⟩
  | 17 => ⟨S50000, .f32⟩
  | 18 => ⟨S50000, .f32⟩
  | 19 => ⟨S50000, .f32⟩
  | 20 => ⟨S50000x1, .f32⟩
  | 21 => ⟨S50000x40, .f32⟩
  | 22 => ⟨S50000x40, .f32⟩
  | 23 => ⟨S50000x40, .f32⟩
  | 24 => ⟨S1x40, .f32⟩
  | 25 => ⟨S50000x40, .f32⟩
  | 26 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_cst_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_19 : Ref sig .tc := ⟨.hbm, 105, rfl⟩
abbrev main_call2_v0 : Ref sig .tc := ⟨.hbm, 106, rfl⟩
abbrev main_call2_v1 : Ref sig .tc := ⟨.hbm, 107, rfl⟩
abbrev main_v74 : Ref sig .tc := ⟨.hbm, 108, rfl⟩
abbrev main_c_20 : Ref sig .tc := ⟨.hbm, 109, rfl⟩
abbrev main_v75 : Ref sig .tc := ⟨.hbm, 110, rfl⟩
abbrev main_v76 : Ref sig .tc := ⟨.hbm, 111, rfl⟩
abbrev main_c_21 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_22 : Ref sig .tc := ⟨.hbm, 118, rfl⟩
abbrev main_v82 : Ref sig .tc := ⟨.hbm, 119, rfl⟩
abbrev main_v83 : Ref sig .tc := ⟨.hbm, 120, rfl⟩
abbrev main_c_23 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_24 : Ref sig .tc := ⟨.hbm, 129, rfl⟩
abbrev main_v91 : Ref sig .tc := ⟨.hbm, 130, rfl⟩
abbrev main_v92 : Ref sig .tc := ⟨.hbm, 131, rfl⟩
abbrev main_c_25 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_26 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_27 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.HostStages.lean ====
/-
  The host side of the kernel's program, read stage by stage.

  Around its two matrix products the kernel's program runs the same host operations as the reference: from the edge
  list the source and target rows, the degree `deg = 1 + #edges into a node`, its inverse square root `dis` (zero
  where the degree is not positive), the edge weight `dis[row] · dis[col]`; then, per layer, the weighted rows of the
  product gathered along the edges and summed into their source rows, plus `dis² ·` the product's own row, plus the
  bias (and a clamp at zero after the first layer). The reference recomputes the degree chain in its second layer
  where the kernel's program reuses it: the same operations on the same edge list.

  Here each buffer the later stretches read is identified, at the boundary where it is read, with the reference's
  stage of the same name-by-position; the two layer lemmas take the product before them as a hypothesis, so that
  nothing here opens a matrix product and everything holds for any float family.
-/
import proofs.«116803_j44521630990796_1_alg».proof.Proof.Gen.KernelIdeal.Frame
import proofs.«116803_j44521630990796_1_alg».proof.Proof.RefRead

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg)

/-! ## Before the first product: rows, degree chain, edge weights -/

/-- The source rows of the edges. -/
theorem rows_at_entry (c : Dev nD) :
    W3 m ρ c (Proc.devRef .tc main_v1) = val_main_v1 (F := F) (m ((c : Thread nD τ).loc main_arg1)) := by
  show StableHlo.after hostOps0_2 (StableHlo.after hostOps0_1 (StableHlo.after hostOps0 (W0 m ρ c))) (Proc.devRef .tc main_v1) = _
  after_results_simp
  rfl

/-- The target rows of the edges. -/
theorem cols_at_entry (c : Dev nD) :
    W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The inverse square root of the degree, zero where the degree is not positive. -/
theorem dis_at_entry (c : Dev nD) :
    W3 m ρ c (Proc.devRef .tc main_v18) = val_main_v19 (F := F) (m ((c : Thread nD τ).loc main_arg1)) := by
  show StableHlo.after hostOps0_2 (StableHlo.after hostOps0_1 (StableHlo.after hostOps0 (W0 m ρ c))) (Proc.devRef .tc main_v18) = _
  after_results_simp
  simp only [TRef.ofBuf, TRef.toBuf, cast_eq]
  rfl

/-- The edge weights `dis[row] · dis[col]`. -/
theorem weights_at_entry (c : Dev nD) :
    W3 m ρ c (Proc.devRef .tc main_v33) = val_main_v34 (F := F) (m ((c : Thread nD τ).loc main_arg1)) := by
  show StableHlo.after hostOps0_2 (StableHlo.after hostOps0_1 (StableHlo.after hostOps0 (W0 m ρ c))) (Proc.devRef .tc main_v33) = _
  after_results_simp
  simp only [TRef.ofBuf, TRef.toBuf, cast_eq]
  rfl

/-- The reference's second layer recomputes the degree chain from the same edge list: the same stages. -/
theorem dis_again (x1 : (⟨S2x800000, .i32⟩ : BufTy).Contents (Elt F)) : val_main_v74 (F := F) x1 = val_main_v19 (F := F) x1 := rfl
theorem weights_again (x1 : (⟨S2x800000, .i32⟩ : BufTy).Contents (Elt F)) : val_main_v89 (F := F) x1 = val_main_v34 (F := F) x1 := rfl

/-- An argument no host operation writes is, at the first region's entry, as launched. -/
theorem bias1_at_entry (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem weights2_at_entry (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem bias2_at_entry (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem features_at_entry (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem weights1_at_entry (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

/-! ## Across the first region: it writes its output only -/

theorem rows_after_first (c : Dev nD) : W4 m ρ c (Proc.devRef .tc main_v1) = val_main_v1 (F := F) (m ((c : Thread nD τ).loc main_arg1)) :=
  (W4_of_ne m ρ c main_v1 (by decide)).trans (rows_at_entry m ρ c)
theorem cols_after_first (c : Dev nD) : W4 m ρ c (Proc.devRef .tc main_v3) = val_main_v3 (F := F) (m ((c : Thread nD τ).loc main_arg1)) :=
  (W4_of_ne m ρ c main_v3 (by decide)).trans (cols_at_entry m ρ c)
theorem dis_after_first (c : Dev nD) : W4 m ρ c (Proc.devRef .tc main_v18) = val_main_v19 (F := F) (m ((c : Thread nD τ).loc main_arg1)) :=
  (W4_of_ne m ρ c main_v18 (by decide)).trans (dis_at_entry m ρ c)
theorem weights_after_first (c : Dev nD) : W4 m ρ c (Proc.devRef .tc main_v33) = val_main_v34 (F := F) (m ((c : Thread nD τ).loc main_arg1)) :=
  (W4_of_ne m ρ c main_v33 (by decide)).trans (weights_at_entry m ρ c)
theorem bias1_after_first (c : Dev nD) : W4 m ρ c (Proc.devRef .tc main_arg3) = m ((c : Thread nD τ).loc main_arg3) :=
  (W4_of_ne m ρ c main_arg3 (by decide)).trans (bias1_at_entry m ρ c)
theorem weights2_after_first (c : Dev nD) : W4 m ρ c (Proc.devRef .tc main_arg4) = m ((c : Thread nD τ).loc main_arg4) :=
  (W4_of_ne m ρ c main_arg4 (by decide)).trans (weights2_at_entry m ρ c)
theorem bias2_after_first (c : Dev nD) : W4 m ρ c (Proc.devRef .tc main_arg5) = m ((c : Thread nD τ).loc main_arg5) :=
  (W4_of_ne m ρ c main_arg5 (by decide)).trans (bias2_at_entry m ρ c)

/-! ## The first layer: from the first product to the second region's entry -/

/-- If the first region leaves the product `x · W1` in its output, the second region is entered with the first
    layer's result — the weighted neighbour rows summed, plus `dis² ·` the node's own row, plus the bias, clamped at
    zero — in the buffer it reads its rows from. -/
theorem first_layer (c : Dev nD)
    (hp : W4 m ρ c (Proc.devRef .tc main_v34)
      = val_main_v4 (F := F) (m ((c : Thread nD τ).loc main_arg0)) (m ((c : Thread nD τ).loc main_arg2))) :
    W6 m ρ c (Proc.devRef .tc main_v58)
      = val_main_v58 (F := F) (m ((c : Thread nD τ).loc main_arg0)) (m ((c : Thread nD τ).loc main_arg1))
          (m ((c : Thread nD τ).loc main_arg2)) (m ((c : Thread nD τ).loc main_arg3)) := by
  show StableHlo.after hostOps1_1 (StableHlo.after hostOps1 (W4 m ρ c)) (Proc.devRef .tc main_v58) = _
  after_results_simp
  simp only [TRef.ofBuf, TRef.toBuf, cast_eq]
  rw [hp, rows_after_first m ρ c, cols_after_first m ρ c, dis_after_first m ρ c, weights_after_first m ρ c,
    bias1_after_first m ρ c]
  rfl

/-- Across the stretch between the regions, a buffer it does not write. -/
theorem rows_at_second (c : Dev nD) : W6 m ρ c (Proc.devRef .tc main_v1) = val_main_v1 (F := F) (m ((c : Thread nD τ).loc main_arg1)) := by
  show StableHlo.after hostOps1_1 (StableHlo.after hostOps1 (W4 m ρ c)) (Proc.devRef .tc main_v1) = _
  after_results_simp
  exact rows_after_first m ρ c
theorem cols_at_second (c : Dev nD) : W6 m ρ c (Proc.devRef .tc main_v3) = val_main_v3 (F := F) (m ((c : Thread nD τ).loc main_arg1)) := by
  show StableHlo.after hostOps1_1 (StableHlo.after hostOps1 (W4 m ρ c)) (Proc.devRef .tc main_v3) = _
  after_results_simp
  exact cols_after_first m ρ c
theorem dis_at_second (c : Dev nD) : W6 m ρ c (Proc.devRef .tc main_v18) = val_main_v19 (F := F) (m ((c : Thread nD τ).loc main_arg1)) := by
  show StableHlo.after hostOps1_1 (StableHlo.after hostOps1 (W4 m ρ c)) (Proc.devRef .tc main_v18) = _
  after_results_simp
  exact dis_after_first m ρ c
theorem weights_at_second (c : Dev nD) : W6 m ρ c (Proc.devRef .tc main_v33) = val_main_v34 (F := F) (m ((c : Thread nD τ).loc main_arg1)) := by
  show StableHlo.after hostOps1_1 (StableHlo.after hostOps1 (W4 m ρ c)) (Proc.devRef .tc main_v33) = _
  after_results_simp
  exact weights_after_first m ρ c
theorem weights2_at_second (c : Dev nD) : W6 m ρ c (Proc.devRef .tc main_arg4) = m ((c : Thread nD τ).loc main_arg4) := by
  show StableHlo.after hostOps1_1 (StableHlo.after hostOps1 (W4 m ρ c)) (Proc.devRef .tc main_arg4) = _
  after_results_simp
  exact weights2_after_first m ρ c
theorem bias2_at_second (c : Dev nD) : W6 m ρ c (Proc.devRef .tc main_arg5) = m ((c : Thread nD τ).loc main_arg5) := by
  show StableHlo.after hostOps1_1 (StableHlo.after hostOps1 (W4 m ρ c)) (Proc.devRef .tc main_arg5) = _
  after_results_simp
  exact bias2_after_first m ρ c

/-! ## Across the second region, and the second layer -/

theorem rows_after_second (c : Dev nD) : W7 m ρ c (Proc.devRef .tc main_v1) = val_main_v1 (F := F) (m ((c : Thread nD τ).loc main_arg1)) :=
  (W7_of_ne m ρ c main_v1 (by decide)).trans (rows_at_second m ρ c)
theorem cols_after_second (c : Dev nD) : W7 m ρ c (Proc.devRef .tc main_v3) = val_main_v3 (F := F) (m ((c : Thread nD τ).loc main_arg1)) :=
  (W7_of_ne m ρ c main_v3 (by decide)).trans (cols_at_second m ρ c)
theorem dis_after_second (c : Dev nD) : W7 m ρ c (Proc.devRef .tc main_v18) = val_main_v74 (F := F) (m ((c : Thread nD τ).loc main_arg1)) :=
  ((W7_of_ne m ρ c main_v18 (by decide)).trans (dis_at_second m ρ c)).trans (dis_again _).symm
theorem weights_after_second (c : Dev nD) : W7 m ρ c (Proc.devRef .tc main_v33) = val_main_v89 (F := F) (m ((c : Thread nD τ).loc main_arg1)) :=
  ((W7_of_ne m ρ c main_v33 (by decide)).trans (weights_at_second m ρ c)).trans (weights_again _).symm
theorem bias2_after_second (c : Dev nD) : W7 m ρ c (Proc.devRef .tc main_arg5) = m ((c : Thread nD τ).loc main_arg5) :=
  (W7_of_ne m ρ c main_arg5 (by decide)).trans (bias2_at_second m ρ c)

/-- If the second region leaves the product of the first layer's result with `W2` in its output, the program's
    result buffer ends at the reference's result stage: the second layer's aggregation, self term and bias. -/
theorem second_layer (c : Dev nD)
    (hp : W7 m ρ c (Proc.devRef .tc main_v59)
      = val_main_v59 (F := F) (m ((c : Thread nD τ).loc main_arg0)) (m ((c : Thread nD τ).loc main_arg1))
          (m ((c : Thread nD τ).loc main_arg2)) (m ((c : Thread nD τ).loc main_arg3)) (m ((c : Thread nD τ).loc main_arg4))) :
    W8 m ρ c (Proc.devRef .tc main_v82)
      = val_main_v112 (F := F) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  show StableHlo.after hostOps2 (W7 m ρ c) (Proc.devRef .tc main_v82) = _
  after_results_simp
  rw [hp, rows_after_second m ρ c, cols_after_second m ρ c, dis_after_second m ρ c, weights_after_second m ρ c,
    bias2_after_second m ρ c]
  rfl

end Cert.KernelIdeal.HostStages

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«116803_j44521630990796_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«116803_j44521630990796_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.FirstProduct.lean ====
/-
  The first pallas_call of the kernel's program: the product of the node features with the first weight matrix.

  The call walks the 50000 rows of the feature matrix in 25 blocks of 2000 rows. At point `t` the body loads rows
  `2000 t … 2000 t + 1999` of the features and the whole 256 × 128 weight matrix, rounds both to bf16 (the identity
  on extended reals), multiplies them into a zero accumulator and stores the 2000 × 128 result as block `t` of the
  output. Entry `(r, q)` of a block's product is the sum over `k` of `x (r, k) · w (k, q)`, which reads row
  `2000 t + r` of the features only: so every block is the restriction of ONE function of the whole arrays, the
  product `x · w` entry by entry, and since the 25 blocks tile the output the array ends holding that product.

  Stated at the contents `V` the region is entered with, as the frame's proof data are.
-/
import proofs.«116803_j44521630990796_1_alg».proof.Proof.Gen.KernelIdeal.Frame
import proofs.«116803_j44521630990796_1_alg».proof.Proof.LibPlainDot
import Idealize.ShloMosaic.Lib.Pipeline.Value
import Idealize.ShloMosaic.Lib.ValueIdx

set_option maxRecDepth 16384

noncomputable section

namespace Cert.KernelIdeal.FirstProduct

open Cert.KernelIdeal Cert.KernelIdeal.Gen Cert.DenseLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The product of the whole arrays: entry `(r, q)` is the sum over `k` of `x (r, k) · w (k, q)`. -/
def product (x : Mat 50000 256) (w : Mat 256 128) : Mat 50000 128 := fun i => prodRow x w (i 0) (i 1)

/-- The body's dimension numbers are those of a plain product of a 2000 × 256 block with the 256 × 128 weights. -/
theorem plain : PlainDot dot_S2000x256_S256x128_S2000x128_1_0_0_1_n_n :=
  plainDot_of_axes _ rfl rfl rfl rfl rfl rfl

/-- What the body stores, entry by entry: the rounding to bf16 is the identity on extended reals, and the product
    into the zero accumulator is the row-times-column sum. -/
theorem payload_apply (x0 : Vec Ideal S2000x256 .f32) (x1 : Vec Ideal S256x128 .f32) (j : S2000x128.Idx) :
    k0_pay1 x0 x1 j = prodRow (a := 2000) (K := 256) (N := 128) x0 x1 (j 0) (j 1) := by
  unfold k0_pay1
  exact matmul_zero_apply plain none _ _ j

theorem hz : (![0, 0] : Fin 2 → Nat) = fun _ => 0 := funext fun a => by fin_cases a <;> rfl

/-- The printed index maps over the grid: the feature block and the output block of point `t` are block `t` along the
    rows and block 0 along the columns; the weights are always block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the arrays the region is entered with. -/
theorem flushed_eq (c : Dev nD) (t : Fin cfg0.N) :
    (dat0 V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e0, e1, e2, e3, e4, e5⟩ := idx_facts t
  funext j
  show k0_pay1 (iblk0 V c 0 t) (iblk0 V c 1 t) j
    = product (V c main_arg0) (V c main_arg2) (((cfg0.win 2).blk t).view.emb j)
  refine (payload_apply _ _ j).trans ?_
  unfold product prodRow
  refine Finset.sum_congr rfl fun k _ => ?_
  -- the feature block at (r, k) is the features at (2000 t + r, k); the weights' block is the weights
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hw : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hx, hw]

/-- An index of the output is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v34).slice (win0_2.rect t)).set ↔ _
  rw [View.set_slice_whole, Rect.mem_set_unit]
  exact Iff.rfl

/-- The 25 blocks of 2000 rows tile the output: row `r` is in the block of point `r / 2000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := by show (i 0).val / 2000 < 25; omega
  refine ⟨⟨(i 0).val / 2000, ht⟩, flush0_2 _, ?_⟩
  rw [mem_blk]
  obtain ⟨-, -, -, -, e4, e5⟩ := idx_facts ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- The output array after the region: the product of the arrays the region is entered with. -/
theorem final (c : Dev nD) :
    (dat0 V c).arrAt 2 cfg0.N = product (V c main_arg0) (V c main_arg2) :=
  (dat0 V c).arrAt_eq_of_cover 2 (product (V c main_arg0) (V c main_arg2)) (fun t _ => flushed_eq V c t) cover

end Cert.KernelIdeal.FirstProduct

end
-- ==== Proof.SecondProduct.lean ====
/-
  The second pallas_call of the kernel's program: the product of the hidden features with the second weight matrix.

  As in the first call, the 50000 rows of the hidden features are walked in 25 blocks of 2000 rows; at point `t` the
  body loads rows `2000 t … 2000 t + 1999` (through a shape cast to the same shape) and the whole 128 × 40 weight
  matrix, rounds both to bf16 (the identity on extended reals), multiplies them into a zero accumulator and stores
  the 2000 × 40 result as block `t` of the output. Every block is the restriction of the product of the whole arrays,
  and the 25 blocks tile the output, so the array ends holding that product.

  Stated at the contents `V` the region is entered with, as the frame's proof data are.
-/
import proofs.«116803_j44521630990796_1_alg».proof.Proof.Gen.KernelIdeal.Frame
import proofs.«116803_j44521630990796_1_alg».proof.Proof.LibPlainDot
import Idealize.ShloMosaic.Lib.Pipeline.Value
import Idealize.ShloMosaic.Lib.ValueIdx

set_option maxRecDepth 16384

noncomputable section

namespace Cert.KernelIdeal.SecondProduct

open Cert.KernelIdeal Cert.KernelIdeal.Gen Cert.DenseLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The product of the whole arrays: entry `(r, q)` is the sum over `k` of `x (r, k) · w (k, q)`. -/
def product (x : Mat 50000 128) (w : Mat 128 40) : Mat 50000 40 := fun i => prodRow x w (i 0) (i 1)

/-- The body's dimension numbers are those of a plain product of a 2000 × 128 block with the 128 × 40 weights. -/
theorem plain : PlainDot dot_S2000x128_S128x40_S2000x40_1_0_0_1_n_n :=
  plainDot_of_axes _ rfl rfl rfl rfl rfl rfl

/-- What the body stores, entry by entry: the cast to the same shape and the rounding to bf16 are the identity,
    and the product into the zero accumulator is the row-times-column sum. -/
theorem payload_apply (x0 : Vec Ideal S2000x128 .f32) (x1 : Vec Ideal S128x40 .f32) (j : S2000x40.Idx) :
    k1_pay1 x0 x1 j = prodRow (a := 2000) (K := 128) (N := 40) x0 x1 (j 0) (j 1) := by
  unfold k1_pay1
  refine (matmul_zero_apply plain none _ _ j).trans ?_
  show prodRow (a := 2000) (K := 128) (N := 40) (shapeCast S2000x128 x0 shapeCasts_S2000x128_S2000x128) x1 (j 0) (j 1) = _
  rw [shapeCast_self]

theorem hz : (![0, 0] : Fin 2 → Nat) = fun _ => 0 := funext fun a => by fin_cases a <;> rfl

/-- The printed index maps over the grid: the hidden block and the output block of point `t` are block `t` along the
    rows and block 0 along the columns; the weights are always block (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the product of the arrays the region is entered with. -/
theorem flushed_eq (c : Dev nD) (t : Fin cfg1.N) :
    (dat1 V c).flushed 2 t
      = ((cfg1.win 2).blk t).view.read (Elt Ideal) (product (V c main_v58) (V c main_arg4)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x40) hz]
  obtain ⟨e0, e1, e2, e3, e4, e5⟩ := idx_facts t
  funext j
  show k1_pay1 (iblk1 V c 0 t) (iblk1 V c 1 t) j
    = product (V c main_v58) (V c main_arg4) (((cfg1.win 2).blk t).view.emb j)
  refine (payload_apply _ _ j).trans ?_
  unfold product prodRow
  refine Finset.sum_congr rfl fun k _ => ?_
  -- the hidden block at (r, k) is the hidden features at (2000 t + r, k); the weights' block is the weights
  have hx : iblk1 V c 0 t (ix2 (j 0) k) = V c main_v58 (ix2 ((((cfg1.win 2).blk t).view.emb j) 0) k) := by
    show V c main_v58 (((cfg1.win 0).blk t).view.emb (ix2 (j 0) k)) = _
    refine congrArg (V c main_v58) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have hw : iblk1 V c 1 t (ix2 k (j 1)) = V c main_arg4 (ix2 k ((((cfg1.win 2).blk t).view.emb j) 1)) := by
    show V c main_arg4 (((cfg1.win 1).blk t).view.emb (ix2 k (j 1))) = _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 40 + 1 * (j 1).val = win1_2.index t (1 : Fin 2) * 40 + 1 * (j 1).val; omega
  rw [hx, hw]

/-- An index of the output is in point `t`'s block iff each coordinate is in the block's range on its axis. -/
theorem mem_blk (t : Fin cfg1.N) (i : S50000x40.Idx) :
    i ∈ ((cfg1.win 2).blk t).view.set ↔ ∀ a : Fin 2, win1_2.index t a * S2000x40.size a ≤ (i a).val
      ∧ (i a).val < win1_2.index t a * S2000x40.size a + S2000x40.size a := by
  show i ∈ ((View.whole main_v59).slice (win1_2.rect t)).set ↔ _
  rw [View.set_slice_whole, Rect.mem_set_unit]
  exact Iff.rfl

/-- The 25 blocks of 2000 rows tile the output: row `r` is in the block of point `r / 2000`. -/
theorem cover (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  have ht : (i 0).val / 2000 < cfg1.N := by show (i 0).val / 2000 < 25; omega
  refine ⟨⟨(i 0).val / 2000, ht⟩, flush1_2 _, ?_⟩
  rw [mem_blk]
  obtain ⟨-, -, -, -, e4, e5⟩ := idx_facts ⟨(i 0).val / 2000, ht⟩
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 40 ≤ (i 1).val
      ∧ (i 1).val < win1_2.index ⟨(i 0).val / 2000, ht⟩ (1 : Fin 2) * 40 + 40
    rw [e5]; omega

/-- The output array after the region: the product of the arrays the region is entered with. -/
theorem final (c : Dev nD) :
    (dat1 V c).arrAt 2 cfg1.N = product (V c main_v58) (V c main_arg4) :=
  (dat1 V c).arrAt_eq_of_cover 2 (product (V c main_v58) (V c main_arg4)) (fun t _ => flushed_eq V c t) cover

end Cert.KernelIdeal.SecondProduct

end
-- ==== Proof.KernelResult.lean ====
/-
  The kernel's program at the ideal values: its result buffer ends at the reference's result stage.

  Each pallas_call leaves in its output array the product of the arrays it was entered with, entry by entry the sum
  over `k` of `x (r, k) · w (k, q)`; the reference's `dot_general` of the same arrays is the same sum. So the first
  region's output is the reference's first product stage; the first layer's host operations carry it to the second
  region's entry as the reference's hidden features; the second region's output is the reference's second product
  stage; and the second layer's host operations carry that to the reference's result.
-/
import proofs.«116803_j44521630990796_1_alg».proof.Proof.KernelRun
import proofs.«116803_j44521630990796_1_alg».proof.Proof.HostStages
import proofs.«116803_j44521630990796_1_alg».proof.Proof.FirstProduct
import proofs.«116803_j44521630990796_1_alg».proof.Proof.SecondProduct

set_option maxRecDepth 16384

noncomputable section

namespace Cert.KernelIdeal.Result

open Cert.KernelIdeal Cert.KernelIdeal.Gen Cert.KernelIdeal.HostStages Cert.DenseLayer
open Idealize.ShloMosaic Idealize.ShloMosaic.TcCoe Idealize.SL.Sem
open Cert.ReferenceIdeal.ReadP

/-- The reference's first `dot_general` has the dimension numbers of a plain 50000 × 256 by 256 × 128 product. -/
theorem plain_first : PlainDot Cert.ReferenceIdeal.dot_S50000x256_S256x128_S50000x128_1_0_0_1_n_n :=
  plainDot_of_axes _ rfl rfl rfl rfl rfl rfl

/-- The reference's second `dot_general` has the dimension numbers of a plain 50000 × 128 by 128 × 40 product. -/
theorem plain_second : PlainDot Cert.ReferenceIdeal.dot_S50000x128_S128x40_S50000x40_1_0_0_1_n_n :=
  plainDot_of_axes _ rfl rfl rfl rfl rfl rfl

/-- The blockwise product of the whole arrays is the host's `dot_general` of them: both are the row-times-column
    sum at every entry. -/
theorem first_product_eq (x : Mat 50000 256) (w : Mat 256 128) :
    FirstProduct.product x w
      = Host.dotGeneral (F := Ideal) (φ₁ := .f32) (φ₂ := .f32) Cert.ReferenceIdeal.dot_S50000x256_S256x128_S50000x128_1_0_0_1_n_n none x w := by
  funext i
  simp only [Host.dotGeneral]
  exact (dotGeneral_apply plain_first none _ x w i).symm

theorem second_product_eq (x : Mat 50000 128) (w : Mat 128 40) :
    SecondProduct.product x w
      = Host.dotGeneral (F := Ideal) (φ₁ := .f32) (φ₂ := .f32) Cert.ReferenceIdeal.dot_S50000x128_S128x40_S50000x40_1_0_0_1_n_n none x w := by
  funext i
  simp only [Host.dotGeneral]
  exact (dotGeneral_apply plain_second none _ x w i).symm

variable (m : (ℓ : Loc nD τ sig) → Buf (Elt Ideal) ℓ) (ρ : Dev nD → PrngReg)

/-- The first region's output is the reference's first product stage. -/
theorem first_output (c : Dev nD) :
    W4 m ρ c (Proc.devRef .tc main_v34) = val_main_v4 (F := Ideal) (m ((c : Thread nD τ).loc main_arg0)) (m ((c : Thread nD τ).loc main_arg2)) :=
  calc W4 m ρ c (Proc.devRef .tc main_v34)
    _ = FirstProduct.product (V3 m ρ c main_arg0) (V3 m ρ c main_arg2) :=
        (W4_arr m ρ c 2).trans (FirstProduct.final (V3 m ρ) c)
    _ = FirstProduct.product (m ((c : Thread nD τ).loc main_arg0)) (m ((c : Thread nD τ).loc main_arg2)) := by
        show FirstProduct.product (W3 m ρ c (Proc.devRef .tc main_arg0)) (W3 m ρ c (Proc.devRef .tc main_arg2)) = _
        rw [features_at_entry m ρ c, weights1_at_entry m ρ c]
    _ = val_main_v4 (F := Ideal) (m ((c : Thread nD τ).loc main_arg0)) (m ((c : Thread nD τ).loc main_arg2)) := first_product_eq _ _

/-- The second region's output is the reference's second product stage. -/
theorem second_output (c : Dev nD) :
    W7 m ρ c (Proc.devRef .tc main_v59)
      = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  calc W7 m ρ c (Proc.devRef .tc main_v59)
    _ = SecondProduct.product (V6 m ρ c main_v58) (V6 m ρ c main_arg4) :=
        (W7_arr m ρ c 2).trans (SecondProduct.final (V6 m ρ) c)
    _ = SecondProduct.product
          (val_main_v58 (F := Ideal) (m ((c : Thread nD τ).loc main_arg0)) (m ((c : Thread nD τ).loc main_arg1)) (m ((c : Thread nD τ).loc main_arg2)) (m ((c : Thread nD τ).loc main_arg3)))
          (m ((c : Thread nD τ).loc main_arg4)) := by
        show SecondProduct.product (W6 m ρ c (Proc.devRef .tc main_v58)) (W6 m ρ c (Proc.devRef .tc main_arg4)) = _
        rw [first_layer m ρ c (first_output m ρ c), weights2_at_second m ρ c]
    _ = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
        second_product_eq _ _

/-- The program's result buffer, at the last boundary, holds the reference's result stage of the arguments. -/
theorem result_eq (c : Dev nD) :
    W8 m ρ c (Proc.devRef .tc main_v82)
      = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  second_layer m ρ c (second_output m ρ c)

/-- The kernel's program runs to its result: the reference's result stage of the launch arguments, which end as
    launched. -/
theorem run : θ_run defs (onTc (τ := τ) (main (F := Ideal))) ⟨m, fun _ => 0, ρ⟩ (fun r => ∀ c : Dev nD,
      r.2.mem ((c.tc : Thread nD τ).loc main_v82)
        = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.GenP.run_out (F := Ideal) m ρ)

end Cert.KernelIdeal.Result

end
-- ==== Proof.lean ====
/-
  The certificate of a two-layer graph convolution: `Cert.Claim`.

  Both programs compute, from node features `x`, an edge list and two weight matrices with biases,
  `out = layer₂ (relu (layer₁ x))` where a layer maps `h` to `agg + dis² · (h · W) + b`: `agg` sums, into each edge's
  source row, the target row of `h · W` weighted by `dis[row] · dis[col]`, and `dis` is the inverse square root of
  `1 + ` the number of edges into a node (zero where that is not positive). The reference is host operations only;
  the kernel's program runs each product `h · W` as a pallas_call over 25 blocks of 2000 rows, rounding its operands to
  bf16 first, and shares one degree chain between the layers where the reference computes it twice.

  On the extended reals the rounding is the identity and a block's product into a zero accumulator is the
  row-times-column sum, which is also what the host's `dot_general` is: the two programs' results are one function of
  the arguments (Proof/KernelResult.lean, over Proof/FirstProduct.lean, Proof/SecondProduct.lean and
  Proof/HostStages.lean). No algebraic law beyond reading both products as the same sum is needed, so the
  precondition is not opened. The frames of the kernel's two programs are the generated ones; the reference's frame is
  its run with the result dropped; the ideal pass rewrote nothing, so `preserves` is trivial.
-/
import proofs.«116803_j44521630990796_1_alg».proof.Defs
import proofs.«116803_j44521630990796_1_alg».proof.Proof.Gen.Kernel
import proofs.«116803_j44521630990796_1_alg».proof.Proof.Gen.Kernel.Skeleton
import proofs.«116803_j44521630990796_1_alg».proof.Proof.Gen.Kernel.Launch
import proofs.«116803_j44521630990796_1_alg».proof.Proof.Gen.Kernel.Points
import proofs.«116803_j44521630990796_1_alg».proof.Proof.Gen.Kernel.Frame
import proofs.«116803_j44521630990796_1_alg».proof.Proof.Gen.KernelIdeal
import proofs.«116803_j44521630990796_1_alg».proof.Proof.Gen.KernelIdeal.Skeleton
import proofs.«116803_j44521630990796_1_alg».proof.Proof.Gen.KernelIdeal.Launch
import proofs.«116803_j44521630990796_1_alg».proof.Proof.Gen.KernelIdeal.Points
import proofs.«116803_j44521630990796_1_alg».proof.Proof.Gen.KernelIdeal.Frame
import proofs.«116803_j44521630990796_1_alg».proof.Proof.Gen.ReferenceIdeal
import proofs.«116803_j44521630990796_1_alg».proof.Proof.Gen.Pre_finite_inputs
import proofs.«116803_j44521630990796_1_alg».proof.Proof.RefRead
import proofs.«116803_j44521630990796_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the reference's result stage of the arguments: the kernel's by its run read stage by
    stage, the reference's by its own run, from memories that agree on the arguments. -/
theorem algebraic : Cert.algebraic_KernelIdeal_ReferenceIdeal := by
  intro m ρ m' ρ' _ hagree
  refine ⟨fun c => Cert.ReferenceIdeal.ReadP.val_main_v112 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v112_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
